-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x40 .f32) (main_arg7 : FVec F S40 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x40 .f32 := Host.absf main_arg6
  let main_cst_10 : FVec F S_ .f32 := constant S_ .f32 0x7F800000#32
  let main_v30 : FVec F S512x40 .f32 := broadcastInDim S512x40 ![] bcast_S_S512x40 main_cst_10
  let main_v31 : IVec S512x40 1 := cmpf .olt main_v29 main_v30
  let main_c_11 : IVec S_ 1 := constantI S_ 1 1#1
  let main_v32 : IVec S_ 1 := (fun x v => Host.reduce IntOp.andi x v reducesTo_S512x40_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x40 .f32) (main_arg7 : FVec F S40 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S10000x40 : Shape := ⟨2, ![10000, 40]⟩
abbrev S1x40 : Shape := ⟨2, ![1, 40]⟩
abbrev S2000x512 : Shape := ⟨2, ![2000, 512]⟩
abbrev S200x10000 : Shape := ⟨2, ![200, 10000]⟩
abbrev S200x512 : Shape := ⟨2, ![200, 512]⟩
abbrev S200x40 : Shape := ⟨2, ![200, 40]⟩

abbrev nBuf : Space → Nat
  | .hbm => 19
  | .vmem => 27
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S512x512, .bf16⟩
  | .hbm, ⟨9, _⟩ => ⟨S10000x512, .bf16⟩
  | .hbm, ⟨10, _⟩ => ⟨S1x512, .f32⟩
  | .hbm, ⟨11, _⟩ => ⟨S512x512, .bf16⟩
  | .hbm, ⟨12, _⟩ => ⟨S10000x512, .bf16⟩
  | .hbm, ⟨13, _⟩ => ⟨S10000x10000, .bf16⟩
  | .hbm, ⟨14, _⟩ => ⟨S1x512, .f32⟩
  | .hbm, ⟨15, _⟩ => ⟨S512x40, .bf16⟩
  | .hbm, ⟨16, _⟩ => ⟨S10000x40, .bf16⟩
  | .hbm, ⟨17, _⟩ => ⟨S1x40, .f32⟩
  | .hbm, ⟨18, _⟩ => ⟨S10000x40, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .bf16⟩
  | .local _ .vmem, ⟨4, _⟩ => ⟨S2000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S1x512, .f32⟩
  | .local _ .vmem, ⟨9, _⟩ => ⟨S512x512, .bf16⟩
  | .local _ .vmem, ⟨10, _⟩ => ⟨S200x512, .bf16⟩
  | .local _ .vmem, ⟨11, _⟩ => ⟨S200x512, .bf16⟩
  | .local _ .vmem, ⟨12, _⟩ => ⟨S200x10000, .bf16⟩
  | .local _ .vmem, ⟨13, _⟩ => ⟨S200x10000, .bf16⟩
  | .local _ .vmem, ⟨14, _⟩ => ⟨S200x10000, .bf16⟩
  | .local _ .vmem, ⟨15, _⟩ => ⟨S200x10000, .bf16⟩
  | .local _ .vmem, ⟨16, _⟩ => ⟨S10000x512, .bf16⟩
  | .local _ .vmem, ⟨17, _⟩ => ⟨S1x512, .f32⟩
  | .local _ .vmem, ⟨18, _⟩ => ⟨S512x40, .bf16⟩
  | .local _ .vmem, ⟨19, _⟩ => ⟨S200x40, .bf16⟩
  | .local _ .vmem, ⟨20, _⟩ => ⟨S200x40, .bf16⟩
  | .local _ .vmem, ⟨21, _⟩ => ⟨S200x10000, .bf16⟩
  | .local _ .vmem, ⟨22, _⟩ => ⟨S200x10000, .bf16⟩
  | .local _ .vmem, ⟨23, _⟩ => ⟨S10000x40, .bf16⟩
  | .local _ .vmem, ⟨24, _⟩ => ⟨S1x40, .f32⟩
  | .local _ .vmem, ⟨25, _⟩ => ⟨S200x40, .f32⟩
  | .local _ .vmem, ⟨26, _⟩ => ⟨S200x40, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4_0 : Ref sig .tc := ⟨.hbm, 12, rfl⟩
abbrev main_call0_v4_1 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x40 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x40 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x40 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S512_S1x512 : S512.ShapeCasts S1x512
  shapeCasts_S40_S1x40 : S40.ShapeCasts S1x40
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2000x512_S2000x512_0_0 : (Rect.unit (s := S2000x512) ![0, 0] S2000x512.size inb_S2000x512_S2000x512_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S200x512_S200x512_0_0 : ∀ a, (![0, 0] : Fin 2 → Nat) a + S200x512.size a ≤ S200x512.size a
  h_S200x512 : 0 < S200x512.numel
  packedbf16_S200x512_S200x512_0_0 : (Rect.unit (s := S200x512) ![0, 0] S200x512.size inb_S200x512_S200x512_0_0).PackedRows (EltTy.packing .bf16)
  shapeCasts_S200x10000_S200x10000 : S200x10000.ShapeCasts S200x10000
  inb_S512x40_S512x40_0_0 : ∀ a, (![0, 0] : Fin 2 → Nat) a + S512x40.size a ≤ S512x40.size a
  h_S512x40 : 0 < S512x40.numel
  shapeCasts_S512x40_S512x40 : S512x40.ShapeCasts S512x40
  inb_S200x40_S200x40_0_0 : ∀ a, (![0, 0] : Fin 2 → Nat) a + S200x40.size a ≤ S200x40.size a
  h_S200x40 : 0 < S200x40.numel
  packedbf16_S200x40_S200x40_0_0 : (Rect.unit (s := S200x40) ![0, 0] S200x40.size inb_S200x40_S200x40_0_0).PackedRows (EltTy.packing .bf16)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  dot_S2000x512_S512x512_S2000x512_1_0_0_1_n_n_wf : DotDims.WF S2000x512 S512x512 S2000x512 [1] [0] [0] [1] [] []
  dot_S200x10000_S10000x512_S200x512_1_0_0_1_n_n_wf : DotDims.WF S200x10000 S10000x512 S200x512 [1] [0] [0] [1] [] []
  dot_S200x512_S512x512_S200x512_1_0_0_1_n_n_wf : DotDims.WF S200x512 S512x512 S200x512 [1] [0] [0] [1] [] []
  dot_S200x512_S512x40_S200x40_1_0_0_1_n_n_wf : DotDims.WF S200x512 S512x40 S200x40 [1] [0] [0] [1] [] []
  dot_S200x10000_S10000x40_S200x40_1_0_0_1_n_n_wf : DotDims.WF S200x10000 S10000x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x512.size a ≤ S10000x512.size a
  hwx1_4 : ∀ i : grid1.Coords, EltTy.bits .bf16 = 32 ∨ (Rect.block (s := S10000x512) S200x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x512.size a ≤ S10000x512.size a
  hwx2_1 : ∀ i : grid2.Coords, EltTy.bits .bf16 = 32 ∨ (Rect.block (s := S10000x512) S10000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x40.size a ≤ S512x40.size a
  hwx2_3 : ∀ i : grid2.Coords, EltTy.bits .bf16 = 32 ∨ (Rect.block (s := S512x40) S512x40.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x40.size a ≤ S10000x40.size a
  hwx2_4 : ∀ i : grid2.Coords, EltTy.bits .bf16 = 32 ∨ (Rect.block (s := S10000x40) S200x40.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S10000x40.size a
  hwx3_1 : ∀ i : grid3.Coords, EltTy.bits .bf16 = 32 ∨ (Rect.block (s := S10000x40) S10000x40.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x40.size a ≤ S10000x40.size a
  hwx3_3 : ∀ i : grid3.Coords, EltTy.bits .f32 = 32 ∨ (Rect.block (s := S10000x40) S200x40.size (cc3_transform_3 i) (hinb3_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf
def dot_S200x512_S512x40_S200x40_1_0_0_1_n_n : DotDims S200x512 S512x40 S200x40 where
  lhsContracting := [1]
  rhsContracting := [0]
  lhsNonContracting := [0]
  rhsNonContracting := [1]
  lhsBatch := []
  rhsBatch := []
  wf := dot_S200x512_S512x40_S200x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4_0) S200x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v4_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v4_1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v4_0) S10000x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v6) S512x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v7) S200x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v4_1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v7) S10000x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v8) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S200x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S_ : Shape := ⟨0, ![]⟩
abbrev S10000x40 : Shape := ⟨2, ![10000, 40]⟩
abbrev S1x40 : Shape := ⟨2, ![1, 40]⟩

abbrev nBuf : Space → Nat
  | .hbm => 29
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S10000x512, .f32⟩
  | .hbm, ⟨9, _⟩ => ⟨S10000x512, .f32⟩
  | .hbm, ⟨10, _⟩ => ⟨S1x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000x512, .f32⟩
  | .hbm, ⟨15, _⟩ => ⟨S10000x512, .f32⟩
  | .hbm, ⟨16, _⟩ => ⟨S10000x512, .f32⟩
  | .hbm, ⟨17, _⟩ => ⟨S10000x512, .f32⟩
  | .hbm, ⟨18, _⟩ => ⟨S1x512, .f32⟩
  | .hbm, ⟨19, _⟩ => ⟨S10000x512, .f32⟩
  | .hbm, ⟨20, _⟩ => ⟨S10000x512, .f32⟩
  | .hbm, ⟨21, _⟩ => ⟨S_, .f32⟩
  | .hbm, ⟨22, _⟩ => ⟨S10000x512, .f32⟩
  | .hbm, ⟨23, _⟩ => ⟨S10000x512, .f32⟩
  | .hbm, ⟨24, _⟩ => ⟨S10000x40, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x40_S10000x40_1_0_0_1_n_n_wf : DotDims.WF S10000x512 S512x40 S10000x40 [1] [0] [0] [1] [] []
  dot_S10000x10000_S10000x40_S10000x40_1_0_0_1_n_n_wf : DotDims.WF S10000x10000 S10000x40 S10000x40 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x40_S10000x40_1_0_0_1_n_n : DotDims S10000x512 S512x40 S10000x40 where
  lhsContracting := [1]
  rhsContracting := [0]
  lhsNonContracting := [0]
  rhsNonContracting := [1]
  lhsBatch := []
  rhsBatch := []
  wf := dot_S10000x512_S512x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.GcnSpec.lean ====
/- The function both programs compute: a dense graph convolution of three layers over the extended reals.

   With `adj` the 10000 × 10000 adjacency matrix, a layer sends node features `h` and a weight matrix `W` to
   `adj · (h · W) + b` (the bias row `b` added to every row); the first two layers are followed by the positive
   part `max(·, 0)`, the third is not. Every product is the plain sum over the contracted coordinate, in the
   order "features times weights first, adjacency second" on both sides, so no algebraic law beyond reading each
   operation at an index is needed. -/
import Idealize.ShloMosaic.PureOps.Ideal
import Idealize.ShloMosaic.Lib.ValueIdx

noncomputable section

namespace Cert.Gcn

open Idealize.ShloMosaic Idealize.ShloMosaic.ValueIdx
open scoped BigOperators

/-- A matrix of extended reals, indexed as the arrays of the two programs are. -/
abbrev Mat (M N : Nat) : Type := (⟨2, ![M, N]⟩ : Shape).Idx → EReal
/-- A row vector of extended reals. -/
abbrev Row (N : Nat) : Type := (⟨1, ![N]⟩ : Shape).Idx → EReal

/-- The matrix product: entry (a, b) is the sum over k of l (a, k) · r (k, b). -/
def mm {M K N : Nat} (l : Mat M K) (r : Mat K N) : Mat M N :=
  fun i => ∑ k : Fin K, l (ix2 (i 0) k) * r (ix2 k (i 1))

/-- A row vector added to every row of a matrix. -/
def addRow {M N : Nat} (x : Mat M N) (b : Row N) : Mat M N :=
  fun i => x i + b (ix1 (i 1))

/-- The one row of a one-row matrix, as a row vector. -/
def rowOf {N : Nat} (b : Mat 1 N) : Row N :=
  fun i => b (ix2 (0 : Fin 1) (i 0))

/-- The positive part, entry by entry: the maximum with the value of the zero word. -/
def pos {M N : Nat} (x : Mat M N) : Mat M N :=
  fun i => max (x i) (Ideal.ofBits .f32 0x00000000#32)

/-- One hidden layer applied to features already multiplied by their weights: `max(adj · s + b, 0)`. -/
def hidden {M K N : Nat} (adj : Mat M K) (s : Mat K N) (b : Row N) : Mat M N :=
  pos (addRow (mm adj s) b)

/-- The first product: the input features times the first weight matrix. -/
def sup0 (x : Mat 10000 512) (W0 : Mat 512 512) : Mat 10000 512 := mm x W0

/-- The second product: the first hidden layer's features times the second weight matrix. -/
def sup1 (x : Mat 10000 512) (adj : Mat 10000 10000) (W0 : Mat 512 512) (b0 : Row 512) (W1 : Mat 512 512) : Mat 10000 512 :=
  mm (hidden adj (sup0 x W0) b0) W1

/-- The third product: the second hidden layer's features times the third weight matrix. -/
def sup2 (x : Mat 10000 512) (adj : Mat 10000 10000) (W0 : Mat 512 512) (b0 : Row 512) (W1 : Mat 512 512) (b1 : Row 512)
    (W2 : Mat 512 40) : Mat 10000 40 :=
  mm (hidden adj (sup1 x adj W0 b0 W1) b1) W2

/-- The network's output: the third layer, with no positive part. -/
def out (x : Mat 10000 512) (adj : Mat 10000 10000) (W0 : Mat 512 512) (b0 : Row 512) (W1 : Mat 512 512) (b1 : Row 512)
    (W2 : Mat 512 40) (b2 : Row 40) : Mat 10000 40 :=
  addRow (mm adj (sup2 x adj W0 b0 W1 b1 W2)) b2

/-! ## Reading the operations at explicit coordinates -/

theorem mm_apply {M K N : Nat} (l : Mat M K) (r : Mat K N) (a : Fin M) (b : Fin N) :
    mm l r (ix2 a b) = ∑ k : Fin K, l (ix2 a k) * r (ix2 k b) := rfl

theorem addRow_apply {M N : Nat} (x : Mat M N) (v : Row N) (a : Fin M) (b : Fin N) :
    addRow x v (ix2 a b) = x (ix2 a b) + v (ix1 b) := rfl

theorem pos_apply {M N : Nat} (x : Mat M N) (a : Fin M) (b : Fin N) :
    pos x (ix2 a b) = max (x (ix2 a b)) (Ideal.ofBits .f32 0x00000000#32) := rfl

theorem hidden_apply {M K N : Nat} (adj : Mat M K) (s : Mat K N) (v : Row N) (a : Fin M) (b : Fin N) :
    hidden adj s v (ix2 a b) = max ((∑ k : Fin K, adj (ix2 a k) * s (ix2 k b)) + v (ix1 b)) (Ideal.ofBits .f32 0x00000000#32) := rfl

theorem rowOf_apply {N : Nat} (b : Mat 1 N) (a : Fin N) : rowOf b (ix1 a) = b (ix2 (0 : Fin 1) a) := rfl

end Cert.Gcn

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.GcnOps.lean ====
/- The operations of the two programs, read as the specification's: the host's and the kernel's matrix products,
   a bias row spread over the rows (the host's two broadcasts; the kernel's reshaped row broadcast to a block), and
   the positive part against a zero that is spread from one word. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«111388_g51960514347202_cont_8to1_c_266_17_alg».proof.Proof.GcnSpec
import proofs.«111388_g51960514347202_cont_8to1_c_266_17_alg».proof.Proof.LibDotPlain

noncomputable section

namespace Cert.Gcn

open Idealize.ShloMosaic Idealize.ShloMosaic.ValueIdx
open scoped BigOperators

/-! ## The host's operations, whole arrays at a time -/

/-- The host's product of two matrices (no batch axis, the left factor's columns against the right factor's rows) is the
    matrix product. -/
theorem hostDot_eq_mm {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : FVec Ideal ⟨2, ![M, K]⟩ .f32) (r : FVec Ideal ⟨2, ![K, N]⟩ .f32) :
    Host.dotGeneral d none l r = mm l r := by
  funext i
  obtain ⟨a, b, rfl⟩ : ∃ (a : Fin M) (b : Fin N), i = ix2 a b := ⟨i 0, i 1, eq_ix2 i⟩
  exact Cert.DotPlain.dotGeneral_rows_cols d hlb hrb hlc hrc hln hrn none .single l r a b

/-- A vector made a one-row matrix and that row spread over all rows, added to a matrix: the bias row added to every row. -/
theorem addf_bcast_eq_addRow {M N : Nat} (x : FVec Ideal ⟨2, ![M, N]⟩ .f32) (v : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf x (broadcastInDim ⟨2, ![M, N]⟩ ![0, 1] h2 (broadcastInDim ⟨2, ![1, N]⟩ ![1] h1 v)) = addRow x v := by
  funext i
  obtain ⟨a, b, rfl⟩ : ∃ (a : Fin M) (b : Fin N), i = ix2 a b := ⟨i 0, i 1, eq_ix2 i⟩
  show x (ix2 a b) + broadcastInDim ⟨2, ![M, N]⟩ ![0, 1] h2 (broadcastInDim ⟨2, ![1, N]⟩ ![1] h1 v) (ix2 a b) = x (ix2 a b) + v (ix1 b)
  refine congrArg (x (ix2 a b) + ·) ?_
  have hb : b.val < N := b.isLt
  rw [broadcastInDim_apply ![0, 1] h2 _ (ix2 a b) (ix2 (0 : Fin 1) b) (fun ax => by
        match ax with
        | ⟨0, _⟩ => rfl
        | ⟨1, _⟩ =>
          show b.val = if N = 1 then 0 else b.val
          split
          · omega
          · rfl),
    broadcastInDim_apply ![1] h1 v (ix2 (0 : Fin 1) b) (ix1 b) (fun ax => by
        match ax with
        | ⟨0, _⟩ =>
          show b.val = if N = 1 then 0 else b.val
          split
          · omega
          · rfl)]

/-- The maximum with a zero word spread over the whole shape: the positive part. -/
theorem maximumf_bcast_eq_pos {M N : Nat} (x : FVec Ideal ⟨2, ![M, N]⟩ .f32)
    (h : (⟨0, ![]⟩ : Shape).BroadcastsInDim ⟨2, ![M, N]⟩ (![] : Fin 0 → Fin 2)) :
    maximumf x (broadcastInDim ⟨2, ![M, N]⟩ ![] h (constant (F := Ideal) ⟨0, ![]⟩ .f32 0x00000000#32)) = pos x := by
  funext i
  rfl

/-! ## The kernel's operations, at an entry of a block -/

/-- The kernel's product into the zero accumulator, at an entry. -/
theorem matmul_zero_apply {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : FVec Ideal ⟨2, ![M, K]⟩ φ₁) (r : FVec Ideal ⟨2, ![K, N]⟩ φ₂) (a : Fin M) (b : Fin N) :
    matmul d none l r (constant ⟨2, ![M, N]⟩ .f32 0x00000000#32) (ix2 a b) = ∑ k : Fin K, l (ix2 a k) * r (ix2 k b) :=
  Cert.DotPlain.matmul_zero_rows_cols d hlb hrb hlc hrc hln hrn none l r a b

end Cert.Gcn

end
-- ==== Proof.Region0.lean ====
/- The first region: the input features times the first weight matrix, 2000 rows at a time.

   At a grid point the body multiplies its block of 2000 rows of `x` by the whole 512 × 512 weight matrix and stores the
   product as the output's block of the same rows; a row of a product depends on that row of the left factor only, so
   each block written back is the block of the whole product, and the five blocks tile the 10000 rows. -/
import proofs.«111388_g51960514347202_cont_8to1_c_266_17_alg».proof.Proof.Gen.KernelIdeal.Frame
import proofs.«111388_g51960514347202_cont_8to1_c_266_17_alg».proof.Proof.GcnSpec
import proofs.«111388_g51960514347202_cont_8to1_c_266_17_alg».proof.Proof.LibDotPlain
import proofs.«111388_g51960514347202_cont_8to1_c_266_17_alg».proof.Proof.GcnOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's stored value at an entry: the sum over the contracted coordinate (the changes of float format are the
    identity on extended reals, the accumulator is the zero matrix). -/
theorem pay_apply (x0 : Vec Ideal S2000x512 .f32) (x1 : Vec Ideal S512x512 .bf16) (p : Fin 2000) (q : Fin 512) :
    k0_pay1 (F := Ideal) x0 x1 (ix2 p q) = ∑ k : Fin 512, x0 (ix2 p k) * x1 (ix2 k q) := by
  unfold k0_pay1
  rw [shapeCast_self]
  exact Cert.DotPlain.matmul_zero_rows_cols dot_S2000x512_S512x512_S2000x512_1_0_0_1_n_n rfl rfl rfl rfl rfl rfl none (φ₁ := .bf16) (φ₂ := .bf16) _ x1 p q

theorem hz : (![0, 0] : Fin 2 → Nat) = fun _ => 0 := funext fun a => by fin_cases a <;> rfl

/-- The index maps over the grid: the row-blocked windows sit at block row `t`, block column 0; the weight matrix's
    window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (mm (V c main_arg0) (V c main_call0_v0)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x512) hz]
  obtain ⟨e0, e1, e2, e3, e4, e5⟩ := idx_facts t
  funext j
  obtain ⟨p, q, rfl⟩ : ∃ (p : Fin 2000) (q : Fin 512), j = ix2 p q := ⟨j 0, j 1, eq_ix2 j⟩
  refine (pay_apply (iblk0 V c 0 t) (iblk0 V c 1 t) p q).trans ?_
  have ht : t.val < 5 := lt_of_lt_of_eq t.isLt N_0
  have hrow : t.val * 2000 + p.val < 10000 := by have := p.isLt; omega
  have hemb : ((cfg0.win 2).blk t).view.emb (ix2 p q) = ix2 (⟨t.val * 2000 + p.val, hrow⟩ : Fin 10000) q := by
    funext a; apply Fin.ext
    match a with
    | ⟨0, _⟩ => show win0_2.index t (0 : Fin 2) * 2000 + 1 * p.val = t.val * 2000 + p.val; omega
    | ⟨1, _⟩ => show win0_2.index t (1 : Fin 2) * 512 + 1 * q.val = q.val; omega
  have rd0 : ∀ k : Fin 512, iblk0 V c 0 t (ix2 p k) = V c main_arg0 (ix2 (⟨t.val * 2000 + p.val, hrow⟩ : Fin 10000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have rd1 : ∀ k : Fin 512, iblk0 V c 1 t (ix2 k q) = V c main_call0_v0 (ix2 k q) := fun k => by
    show V c main_call0_v0 (((cfg0.win 1).blk t).view.emb (ix2 k q)) = _
    refine congrArg (V c main_call0_v0) ?_
    funext a; apply Fin.ext
    match a with
    | ⟨0, _⟩ => show win0_1.index t (0 : Fin 2) * 512 + 1 * k.val = k.val; omega
    | ⟨1, _⟩ => show win0_1.index t (1 : Fin 2) * 512 + 1 * q.val = q.val; omega
  show _ = mm (V c main_arg0) (V c main_call0_v0) (((cfg0.win 2).blk t).view.emb (ix2 p q))
  rw [hemb, mm_apply]
  exact Finset.sum_congr rfl fun k _ => by rw [rd0 k, rd1 k]

/-- An index of the array is in point `t`'s block iff each coordinate is in the block's range on its axis. -/
theorem mem_blk (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_call0_v1).slice (win0_2.rect t)).set ↔ _
  rw [View.set_slice_whole, Rect.mem_set_unit]
  exact Iff.rfl

/-- Every row lies in the block of the point its row index divided by 2000 names. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  let t : Fin cfg0.N := ⟨(i 0).val / 2000, by rw [show cfg0.N = 5 from N_0]; omega⟩
  obtain ⟨e0, e1, e2, e3, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The region's output array after the run: the product of the two arrays as the region finds them. -/
theorem final (c : Dev nD) : (dat0 V c).arrAt 2 cfg0.N = mm (V c main_arg0) (V c main_call0_v0) :=
  (dat0 V c).arrAt_eq_of_cover 2 _ (fun t _ => flushed_eq V c t) cover

end Cert.KernelIdeal.Region0

end
-- ==== Proof.Region1.lean ====
/- The second region: the first hidden layer and the next product, 200 rows at a time, and a copy of the adjacency matrix.

   At a grid point the body takes its block of 200 rows of the adjacency matrix, multiplies it by the whole first product,
   adds the bias row, takes the positive part, and multiplies the result by the whole second weight matrix; it stores that
   as the first output's block of the same rows, and the adjacency block itself as the second output's block. A row of
   each result depends on that row of the adjacency matrix only, so each block written back is the block of the whole
   result, and the fifty blocks tile the 10000 rows. -/
import proofs.«111388_g51960514347202_cont_8to1_c_266_17_alg».proof.Proof.Gen.KernelIdeal.Frame
import proofs.«111388_g51960514347202_cont_8to1_c_266_17_alg».proof.Proof.GcnSpec
import proofs.«111388_g51960514347202_cont_8to1_c_266_17_alg».proof.Proof.LibDotPlain
import proofs.«111388_g51960514347202_cont_8to1_c_266_17_alg».proof.Proof.GcnOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The copied block: the change of float format is the identity. -/
theorem pay1_apply (x0 : Vec Ideal S200x10000 .f32) (p : Fin 200) (l : Fin 10000) :
    k1_pay1 (F := Ideal) x0 (ix2 p l) = x0 (ix2 p l) := rfl

/-- The stored product at an entry: the hidden layer's row (the adjacency block's row against each column of the whole
    right factor, plus the bias, positive part) against the column of the next weight matrix. -/
theorem pay2_apply (x0 : Vec Ideal S200x10000 .f32) (x1 : Vec Ideal S10000x512 .bf16) (x2 : Vec Ideal S1x512 .f32)
    (x3 : Vec Ideal S512x512 .bf16) (p : Fin 200) (q : Fin 512) :
    k1_pay2 (F := Ideal) x0 x1 x2 x3 (ix2 p q)
      = ∑ k : Fin 512, max ((∑ l : Fin 10000, x0 (ix2 p l) * x1 (ix2 l k)) + x2 (ix2 (0 : Fin 1) k)) (Ideal.ofBits .f32 0x00000000#32)
          * x3 (ix2 k q) := by
  unfold k1_pay2 k1_pay1
  dsimp only
  rw [shapeCast_self, shapeCast_self, shapeCast_self]
  refine (matmul_zero_apply dot_S200x512_S512x512_S200x512_1_0_0_1_n_n rfl rfl rfl rfl rfl rfl (φ₁ := .bf16) (φ₂ := .bf16) _ x3 p q).trans ?_
  refine Finset.sum_congr rfl fun k _ => ?_
  refine congrArg (· * x3 (ix2 k q)) ?_
  rw [truncf_apply, maximumf_apply, addf_apply, matmul_zero_apply dot_S200x10000_S10000x512_S200x512_1_0_0_1_n_n rfl rfl rfl rfl rfl rfl (φ₁ := .bf16) (φ₂ := .bf16) _ x1 p k,
    broadcastTo_1b_ab_apply]
  rfl

theorem hz : (![0, 0] : Fin 2 → Nat) = fun _ => 0 := funext fun a => by fin_cases a <;> rfl

/-- The index maps over the grid: the row-blocked windows sit at block row `t`, block column 0; the windows of the
    right factor, the bias row and the weight matrix stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The first output: the next product -/

/-- What point `t` writes back to the first output is block `t` of the whole product of the arrays as the region finds them. -/
theorem flushed4_eq (c : Dev nD) (t : Fin cfg1.N) :
    (dat1 V c).flushed 4 t = ((cfg1.win 4).blk t).view.read (Elt Ideal)
      (mm (hidden (V c main_arg1) (V c main_call0_v1) (rowOf (V c main_call0_v2))) (V c main_call0_v3)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x512) hz, View.ld_unit_zero (S := S1x512) hz,
    View.ld_unit_zero (S := S512x512) hz]
  obtain ⟨e0, e1, e2, e3, e4, e5, e6, e7, e8, e9, e10, e11⟩ := idx_facts t
  funext j
  obtain ⟨p, q, rfl⟩ : ∃ (p : Fin 200) (q : Fin 512), j = ix2 p q := ⟨j 0, j 1, eq_ix2 j⟩
  refine (pay2_apply (iblk1 V c 0 t) (iblk1 V c 1 t) (iblk1 V c 2 t) (iblk1 V c 3 t) p q).trans ?_
  have ht : t.val < 50 := lt_of_lt_of_eq t.isLt N_1
  have hrow : t.val * 200 + p.val < 10000 := by have := p.isLt; omega
  have hemb : ((cfg1.win 4).blk t).view.emb (ix2 p q) = ix2 (⟨t.val * 200 + p.val, hrow⟩ : Fin 10000) q := by
    funext a; apply Fin.ext
    match a with
    | ⟨0, _⟩ => show win1_4.index t (0 : Fin 2) * 200 + 1 * p.val = t.val * 200 + p.val; omega
    | ⟨1, _⟩ => show win1_4.index t (1 : Fin 2) * 512 + 1 * q.val = q.val; omega
  have rd0 : ∀ l : Fin 10000, iblk1 V c 0 t (ix2 p l) = V c main_arg1 (ix2 (⟨t.val * 200 + p.val, hrow⟩ : Fin 10000) l) := fun l => by
    show V c main_arg1 (((cfg1.win 0).blk t).view.emb (ix2 p l)) = _
    refine congrArg (V c main_arg1) ?_
    funext a; apply Fin.ext
    match a with
    | ⟨0, _⟩ => show win1_0.index t (0 : Fin 2) * 200 + 1 * p.val = t.val * 200 + p.val; omega
    | ⟨1, _⟩ => show win1_0.index t (1 : Fin 2) * 10000 + 1 * l.val = l.val; omega
  have rd1 : ∀ (l : Fin 10000) (k : Fin 512), iblk1 V c 1 t (ix2 l k) = V c main_call0_v1 (ix2 l k) := fun l k => by
    show V c main_call0_v1 (((cfg1.win 1).blk t).view.emb (ix2 l k)) = _
    refine congrArg (V c main_call0_v1) ?_
    funext a; apply Fin.ext
    match a with
    | ⟨0, _⟩ => show win1_1.index t (0 : Fin 2) * 10000 + 1 * l.val = l.val; omega
    | ⟨1, _⟩ => show win1_1.index t (1 : Fin 2) * 512 + 1 * k.val = k.val; omega
  have rd2 : ∀ k : Fin 512, iblk1 V c 2 t (ix2 (0 : Fin 1) k) = V c main_call0_v2 (ix2 (0 : Fin 1) k) := fun k => by
    show V c main_call0_v2 (((cfg1.win 2).blk t).view.emb (ix2 (0 : Fin 1) k)) = _
    refine congrArg (V c main_call0_v2) ?_
    funext a; apply Fin.ext
    match a with
    | ⟨0, _⟩ => show win1_2.index t (0 : Fin 2) * 1 + 1 * 0 = 0; omega
    | ⟨1, _⟩ => show win1_2.index t (1 : Fin 2) * 512 + 1 * k.val = k.val; omega
  have rd3 : ∀ k : Fin 512, iblk1 V c 3 t (ix2 k q) = V c main_call0_v3 (ix2 k q) := fun k => by
    show V c main_call0_v3 (((cfg1.win 3).blk t).view.emb (ix2 k q)) = _
    refine congrArg (V c main_call0_v3) ?_
    funext a; apply Fin.ext
    match a with
    | ⟨0, _⟩ => show win1_3.index t (0 : Fin 2) * 512 + 1 * k.val = k.val; omega
    | ⟨1, _⟩ => show win1_3.index t (1 : Fin 2) * 512 + 1 * q.val = q.val; omega
  show _ = mm (hidden (V c main_arg1) (V c main_call0_v1) (rowOf (V c main_call0_v2))) (V c main_call0_v3)
    (((cfg1.win 4).blk t).view.emb (ix2 p q))
  rw [hemb, mm_apply]
  refine Finset.sum_congr rfl fun k _ => ?_
  rw [hidden_apply, rowOf_apply, rd2 k, rd3 k]
  refine congrArg (fun s => max (s + V c main_call0_v2 (ix2 (0 : Fin 1) k)) (Ideal.ofBits .f32 0x00000000#32) * V c main_call0_v3 (ix2 k q)) ?_
  exact Finset.sum_congr rfl fun l _ => by rw [rd0 l, rd1 l k]

/-- An index of the first output's array is in point `t`'s block iff each coordinate is in the block's range on its axis. -/
theorem mem_blk4 (t : Fin cfg1.N) (i : S10000x512.Idx) :
    i ∈ ((cfg1.win 4).blk t).view.set ↔ ∀ a : Fin 2, win1_4.index t a * S200x512.size a ≤ (i a).val ∧ (i a).val < win1_4.index t a * S200x512.size a + S200x512.size a := by
  show i ∈ ((View.whole main_call0_v4_0).slice (win1_4.rect t)).set ↔ _
  rw [View.set_slice_whole, Rect.mem_set_unit]
  exact Iff.rfl

/-- Every row lies in the block of the point its row index divided by 200 names. -/
theorem cover4 (i : S10000x512.Idx) : ∃ t : Fin cfg1.N, (cfg1.win 4).flush t = true ∧ i ∈ ((cfg1.win 4).blk t).view.set := by
  have hi0 : (i 0).val < 10000 := (i 0).isLt
  have hi1 : (i 1).val < 512 := (i 1).isLt
  let t : Fin cfg1.N := ⟨(i 0).val / 200, by rw [show cfg1.N = 50 from N_1]; omega⟩
  obtain ⟨e0, e1, e2, e3, e4, e5, e6, e7, e8, e9, e10, e11⟩ := idx_facts t
  have e8' : win1_4.index t (0 : Fin 2) = (i 0).val / 200 := e8
  refine ⟨t, flush1_4 t, ?_⟩
  rw [mem_blk4]
  intro a
  match a with
  | ⟨0, _⟩ => show win1_4.index t (0 : Fin 2) * 200 ≤ (i 0).val ∧ (i 0).val < win1_4.index t (0 : Fin 2) * 200 + 200; omega
  | ⟨1, _⟩ => show win1_4.index t (1 : Fin 2) * 512 ≤ (i 1).val ∧ (i 1).val < win1_4.index t (1 : Fin 2) * 512 + 512; omega

/-- The first output's array after the run: the hidden layer of the arrays as the region finds them, times the weights. -/
theorem final4 (c : Dev nD) :
    (dat1 V c).arrAt 4 cfg1.N = mm (hidden (V c main_arg1) (V c main_call0_v1) (rowOf (V c main_call0_v2))) (V c main_call0_v3) :=
  (dat1 V c).arrAt_eq_of_cover 4 _ (fun t _ => flushed4_eq V c t) cover4

/-! ## The second output: the adjacency matrix again -/

/-- What point `t` writes back to the second output is block `t` of the adjacency matrix as the region finds it. -/
theorem flushed5_eq (c : Dev nD) (t : Fin cfg1.N) :
    (dat1 V c).flushed 5 t = ((cfg1.win 5).blk t).view.read (Elt Ideal) (V c main_arg1) := by
  show (cfg1.win 5).cut (grid1.coords t) ((dat1 V c).after 5 t) = _
  rw [after1_5]
  unfold out1_5
  rw [View.canon_unit_zero hz]
  simp only [View.ld_unit_zero (S := S200x10000) hz]
  obtain ⟨e0, e1, e2, e3, e4, e5, e6, e7, e8, e9, e10, e11⟩ := idx_facts t
  funext j
  obtain ⟨p, l, rfl⟩ : ∃ (p : Fin 200) (l : Fin 10000), j = ix2 p l := ⟨j 0, j 1, eq_ix2 j⟩
  refine (pay1_apply (iblk1 V c 0 t) p l).trans ?_
  show V c main_arg1 (((cfg1.win 0).blk t).view.emb (ix2 p l)) = V c main_arg1 (((cfg1.win 5).blk t).view.emb (ix2 p l))
  refine congrArg (V c main_arg1) ?_
  funext a; apply Fin.ext
  match a with
  | ⟨0, _⟩ => show win1_0.index t (0 : Fin 2) * 200 + 1 * p.val = win1_5.index t (0 : Fin 2) * 200 + 1 * p.val; omega
  | ⟨1, _⟩ => show win1_0.index t (1 : Fin 2) * 10000 + 1 * l.val = win1_5.index t (1 : Fin 2) * 10000 + 1 * l.val; omega

/-- An index of the second output's array is in point `t`'s block iff each coordinate is in the block's range on its axis. -/
theorem mem_blk5 (t : Fin cfg1.N) (i : S10000x10000.Idx) :
    i ∈ ((cfg1.win 5).blk t).view.set ↔ ∀ a : Fin 2, win1_5.index t a * S200x10000.size a ≤ (i a).val ∧ (i a).val < win1_5.index t a * S200x10000.size a + S200x10000.size a := by
  show i ∈ ((View.whole main_call0_v4_1).slice (win1_5.rect t)).set ↔ _
  rw [View.set_slice_whole, Rect.mem_set_unit]
  exact Iff.rfl

/-- Every row lies in the block of the point its row index divided by 200 names. -/
theorem cover5 (i : S10000x10000.Idx) : ∃ t : Fin cfg1.N, (cfg1.win 5).flush t = true ∧ i ∈ ((cfg1.win 5).blk t).view.set := by
  have hi0 : (i 0).val < 10000 := (i 0).isLt
  have hi1 : (i 1).val < 10000 := (i 1).isLt
  let t : Fin cfg1.N := ⟨(i 0).val / 200, by rw [show cfg1.N = 50 from N_1]; omega⟩
  obtain ⟨e0, e1, e2, e3, e4, e5, e6, e7, e8, e9, e10, e11⟩ := idx_facts t
  have e10' : win1_5.index t (0 : Fin 2) = (i 0).val / 200 := e10
  refine ⟨t, flush1_5 t, ?_⟩
  rw [mem_blk5]
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 10000 ≤ (i 1).val ∧ (i 1).val < win1_5.index t (1 : Fin 2) * 10000 + 10000; omega

/-- The second output's array after the run: the adjacency matrix as the region finds it. -/
theorem final5 (c : Dev nD) : (dat1 V c).arrAt 5 cfg1.N = V c main_arg1 :=
  (dat1 V c).arrAt_eq_of_cover 5 _ (fun t _ => flushed5_eq V c t) cover5

end Cert.KernelIdeal.Region1

end
-- ==== Proof.Region2.lean ====
/- The third region: the second hidden layer and the last product, 200 rows at a time.

   At a grid point the body takes its block of 200 rows of the copied adjacency matrix, multiplies it by the whole second
   product, adds the bias row, takes the positive part, and multiplies the result by the whole third weight matrix; it
   stores that as the output's block of the same rows. A row of the result depends on that row of the adjacency matrix
   only, so each block written back is the block of the whole result, and the fifty blocks tile the 10000 rows. -/
import proofs.«111388_g51960514347202_cont_8to1_c_266_17_alg».proof.Proof.Gen.KernelIdeal.Frame
import proofs.«111388_g51960514347202_cont_8to1_c_266_17_alg».proof.Proof.GcnSpec
import proofs.«111388_g51960514347202_cont_8to1_c_266_17_alg».proof.Proof.LibDotPlain
import proofs.«111388_g51960514347202_cont_8to1_c_266_17_alg».proof.Proof.GcnOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The stored product at an entry: the hidden layer's row (the adjacency block's row against each column of the whole
    right factor, plus the bias, positive part) against the column of the last weight matrix. -/
theorem pay_apply (x0 : Vec Ideal S200x10000 .bf16) (x1 : Vec Ideal S10000x512 .bf16) (x2 : Vec Ideal S1x512 .f32)
    (x3 : Vec Ideal S512x40 .bf16) (p : Fin 200) (q : Fin 40) :
    k2_pay1 (F := Ideal) x0 x1 x2 x3 (ix2 p q)
      = ∑ k : Fin 512, max ((∑ l : Fin 10000, x0 (ix2 p l) * x1 (ix2 l k)) + x2 (ix2 (0 : Fin 1) k)) (Ideal.ofBits .f32 0x00000000#32)
          * x3 (ix2 k q) := by
  unfold k2_pay1
  rw [shapeCast_self, shapeCast_self, shapeCast_self, shapeCast_self]
  refine (matmul_zero_apply dot_S200x512_S512x40_S200x40_1_0_0_1_n_n rfl rfl rfl rfl rfl rfl (φ₁ := .bf16) (φ₂ := .bf16) _ x3 p q).trans ?_
  refine Finset.sum_congr rfl fun k _ => ?_
  refine congrArg (· * x3 (ix2 k q)) ?_
  rw [truncf_apply, maximumf_apply, addf_apply, matmul_zero_apply dot_S200x10000_S10000x512_S200x512_1_0_0_1_n_n rfl rfl rfl rfl rfl rfl (φ₁ := .bf16) (φ₂ := .bf16) x0 x1 p k,
    broadcastTo_1b_ab_apply]
  rfl

theorem hz : (![0, 0] : Fin 2 → Nat) = fun _ => 0 := funext fun a => by fin_cases a <;> rfl

/-- The index maps over the grid: the row-blocked windows sit at block row `t`, block column 0; the windows of the
    right factor, the bias row and the weight matrix stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the whole product of the arrays as the region finds them. -/
theorem flushed_eq (c : Dev nD) (t : Fin cfg2.N) :
    (dat2 V c).flushed 4 t = ((cfg2.win 4).blk t).view.read (Elt Ideal)
      (mm (hidden (V c main_call0_v4_1) (V c main_call0_v4_0) (rowOf (V c main_call0_v5))) (V c main_call0_v6)) := by
  show (cfg2.win 4).cut (grid2.coords t) ((dat2 V c).after 4 t) = _
  rw [after2_4]
  unfold out2_4
  rw [View.canon_unit_zero hz]
  simp only [View.ld_unit_zero (S := S200x10000) hz, View.ld_unit_zero (S := S10000x512) hz, View.ld_unit_zero (S := S1x512) hz,
    View.ld_unit_zero (S := S512x40) hz]
  obtain ⟨e0, e1, e2, e3, e4, e5, e6, e7, e8, e9⟩ := idx_facts t
  funext j
  obtain ⟨p, q, rfl⟩ : ∃ (p : Fin 200) (q : Fin 40), j = ix2 p q := ⟨j 0, j 1, eq_ix2 j⟩
  refine (pay_apply (iblk2 V c 0 t) (iblk2 V c 1 t) (iblk2 V c 2 t) (iblk2 V c 3 t) p q).trans ?_
  have ht : t.val < 50 := lt_of_lt_of_eq t.isLt N_2
  have hrow : t.val * 200 + p.val < 10000 := by have := p.isLt; omega
  have hemb : ((cfg2.win 4).blk t).view.emb (ix2 p q) = ix2 (⟨t.val * 200 + p.val, hrow⟩ : Fin 10000) q := by
    funext a; apply Fin.ext
    match a with
    | ⟨0, _⟩ => show win2_4.index t (0 : Fin 2) * 200 + 1 * p.val = t.val * 200 + p.val; omega
    | ⟨1, _⟩ => show win2_4.index t (1 : Fin 2) * 40 + 1 * q.val = q.val; omega
  have rd0 : ∀ l : Fin 10000, iblk2 V c 0 t (ix2 p l) = V c main_call0_v4_1 (ix2 (⟨t.val * 200 + p.val, hrow⟩ : Fin 10000) l) := fun l => by
    show V c main_call0_v4_1 (((cfg2.win 0).blk t).view.emb (ix2 p l)) = _
    refine congrArg (V c main_call0_v4_1) ?_
    funext a; apply Fin.ext
    match a with
    | ⟨0, _⟩ => show win2_0.index t (0 : Fin 2) * 200 + 1 * p.val = t.val * 200 + p.val; omega
    | ⟨1, _⟩ => show win2_0.index t (1 : Fin 2) * 10000 + 1 * l.val = l.val; omega
  have rd1 : ∀ (l : Fin 10000) (k : Fin 512), iblk2 V c 1 t (ix2 l k) = V c main_call0_v4_0 (ix2 l k) := fun l k => by
    show V c main_call0_v4_0 (((cfg2.win 1).blk t).view.emb (ix2 l k)) = _
    refine congrArg (V c main_call0_v4_0) ?_
    funext a; apply Fin.ext
    match a with
    | ⟨0, _⟩ => show win2_1.index t (0 : Fin 2) * 10000 + 1 * l.val = l.val; omega
    | ⟨1, _⟩ => show win2_1.index t (1 : Fin 2) * 512 + 1 * k.val = k.val; omega
  have rd2 : ∀ k : Fin 512, iblk2 V c 2 t (ix2 (0 : Fin 1) k) = V c main_call0_v5 (ix2 (0 : Fin 1) k) := fun k => by
    show V c main_call0_v5 (((cfg2.win 2).blk t).view.emb (ix2 (0 : Fin 1) k)) = _
    refine congrArg (V c main_call0_v5) ?_
    funext a; apply Fin.ext
    match a with
    | ⟨0, _⟩ => show win2_2.index t (0 : Fin 2) * 1 + 1 * 0 = 0; omega
    | ⟨1, _⟩ => show win2_2.index t (1 : Fin 2) * 512 + 1 * k.val = k.val; omega
  have rd3 : ∀ k : Fin 512, iblk2 V c 3 t (ix2 k q) = V c main_call0_v6 (ix2 k q) := fun k => by
    show V c main_call0_v6 (((cfg2.win 3).blk t).view.emb (ix2 k q)) = _
    refine congrArg (V c main_call0_v6) ?_
    funext a; apply Fin.ext
    match a with
    | ⟨0, _⟩ => show win2_3.index t (0 : Fin 2) * 512 + 1 * k.val = k.val; omega
    | ⟨1, _⟩ => show win2_3.index t (1 : Fin 2) * 40 + 1 * q.val = q.val; omega
  show _ = mm (hidden (V c main_call0_v4_1) (V c main_call0_v4_0) (rowOf (V c main_call0_v5))) (V c main_call0_v6)
    (((cfg2.win 4).blk t).view.emb (ix2 p q))
  rw [hemb, mm_apply]
  refine Finset.sum_congr rfl fun k _ => ?_
  rw [hidden_apply, rowOf_apply, rd2 k, rd3 k]
  refine congrArg (fun s => max (s + V c main_call0_v5 (ix2 (0 : Fin 1) k)) (Ideal.ofBits .f32 0x00000000#32) * V c main_call0_v6 (ix2 k q)) ?_
  exact Finset.sum_congr rfl fun l _ => by rw [rd0 l, rd1 l k]

/-- An index of the array is in point `t`'s block iff each coordinate is in the block's range on its axis. -/
theorem mem_blk (t : Fin cfg2.N) (i : S10000x40.Idx) :
    i ∈ ((cfg2.win 4).blk t).view.set ↔ ∀ a : Fin 2, win2_4.index t a * S200x40.size a ≤ (i a).val ∧ (i a).val < win2_4.index t a * S200x40.size a + S200x40.size a := by
  show i ∈ ((View.whole main_call0_v7).slice (win2_4.rect t)).set ↔ _
  rw [View.set_slice_whole, Rect.mem_set_unit]
  exact Iff.rfl

/-- Every row lies in the block of the point its row index divided by 200 names. -/
theorem cover (i : S10000x40.Idx) : ∃ t : Fin cfg2.N, (cfg2.win 4).flush t = true ∧ i ∈ ((cfg2.win 4).blk t).view.set := by
  have hi0 : (i 0).val < 10000 := (i 0).isLt
  have hi1 : (i 1).val < 40 := (i 1).isLt
  let t : Fin cfg2.N := ⟨(i 0).val / 200, by rw [show cfg2.N = 50 from N_2]; omega⟩
  obtain ⟨e0, e1, e2, e3, e4, e5, e6, e7, e8, e9⟩ := idx_facts t
  have e8' : win2_4.index t (0 : Fin 2) = (i 0).val / 200 := e8
  refine ⟨t, flush2_4 t, ?_⟩
  rw [mem_blk]
  intro a
  match a with
  | ⟨0, _⟩ => show win2_4.index t (0 : Fin 2) * 200 ≤ (i 0).val ∧ (i 0).val < win2_4.index t (0 : Fin 2) * 200 + 200; omega
  | ⟨1, _⟩ => show win2_4.index t (1 : Fin 2) * 40 ≤ (i 1).val ∧ (i 1).val < win2_4.index t (1 : Fin 2) * 40 + 40; omega

/-- The output array after the run: the hidden layer of the arrays as the region finds them, times the weights. -/
theorem final (c : Dev nD) :
    (dat2 V c).arrAt 4 cfg2.N = mm (hidden (V c main_call0_v4_1) (V c main_call0_v4_0) (rowOf (V c main_call0_v5))) (V c main_call0_v6) :=
  (dat2 V c).arrAt_eq_of_cover 4 _ (fun t _ => flushed_eq V c t) cover

end Cert.KernelIdeal.Region2

end
-- ==== Proof.Region3.lean ====
/- The last region: the adjacency matrix times the third product, plus the last bias row, 200 rows at a time.

   At a grid point the body multiplies its block of 200 rows of the adjacency matrix by the whole 10000 × 40 right factor,
   adds the bias row to every row and stores the result as the output's block of the same rows. A row of the result
   depends on that row of the adjacency matrix only, so each block written back is the block of the whole result, and
   the fifty blocks tile the 10000 rows. -/
import proofs.«111388_g51960514347202_cont_8to1_c_266_17_alg».proof.Proof.Gen.KernelIdeal.Frame
import proofs.«111388_g51960514347202_cont_8to1_c_266_17_alg».proof.Proof.GcnSpec
import proofs.«111388_g51960514347202_cont_8to1_c_266_17_alg».proof.Proof.LibDotPlain
import proofs.«111388_g51960514347202_cont_8to1_c_266_17_alg».proof.Proof.GcnOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's stored value at an entry: the row of the adjacency block against the column of the whole right factor,
    plus the bias row's entry of that column. -/
theorem pay_apply (x0 : Vec Ideal S200x10000 .bf16) (x1 : Vec Ideal S10000x40 .bf16) (x2 : Vec Ideal S1x40 .f32)
    (p : Fin 200) (q : Fin 40) :
    k3_pay1 (F := Ideal) x0 x1 x2 (ix2 p q) = (∑ l : Fin 10000, x0 (ix2 p l) * x1 (ix2 l q)) + x2 (ix2 (0 : Fin 1) q) := by
  unfold k3_pay1
  rw [shapeCast_self, shapeCast_self, shapeCast_self]
  rw [addf_apply, matmul_zero_apply dot_S200x10000_S10000x40_S200x40_1_0_0_1_n_n rfl rfl rfl rfl rfl rfl (φ₁ := .bf16) (φ₂ := .bf16) x0 x1 p q,
    broadcastTo_1b_ab_apply]

theorem hz : (![0, 0] : Fin 2 → Nat) = fun _ => 0 := funext fun a => by fin_cases a <;> rfl

/-- The index maps over the grid: the row-blocked windows sit at block row `t`, block column 0; the windows of the
    right factor and of the bias row stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole result of the arrays as the region finds them. -/
theorem flushed_eq (c : Dev nD) (t : Fin cfg3.N) :
    (dat3 V c).flushed 3 t = ((cfg3.win 3).blk t).view.read (Elt Ideal)
      (addRow (mm (V c main_call0_v4_1) (V c main_call0_v7)) (rowOf (V c main_call0_v8))) := by
  show (cfg3.win 3).cut (grid3.coords t) ((dat3 V c).after 3 t) = _
  rw [after3_3]
  unfold out3_3
  rw [View.canon_unit_zero hz]
  simp only [View.ld_unit_zero (S := S200x10000) hz, View.ld_unit_zero (S := S10000x40) hz, View.ld_unit_zero (S := S1x40) hz]
  obtain ⟨e0, e1, e2, e3, e4, e5, e6, e7⟩ := idx_facts t
  funext j
  obtain ⟨p, q, rfl⟩ : ∃ (p : Fin 200) (q : Fin 40), j = ix2 p q := ⟨j 0, j 1, eq_ix2 j⟩
  refine (pay_apply (iblk3 V c 0 t) (iblk3 V c 1 t) (iblk3 V c 2 t) p q).trans ?_
  have ht : t.val < 50 := lt_of_lt_of_eq t.isLt N_3
  have hrow : t.val * 200 + p.val < 10000 := by have := p.isLt; omega
  have hemb : ((cfg3.win 3).blk t).view.emb (ix2 p q) = ix2 (⟨t.val * 200 + p.val, hrow⟩ : Fin 10000) q := by
    funext a; apply Fin.ext
    match a with
    | ⟨0, _⟩ => show win3_3.index t (0 : Fin 2) * 200 + 1 * p.val = t.val * 200 + p.val; omega
    | ⟨1, _⟩ => show win3_3.index t (1 : Fin 2) * 40 + 1 * q.val = q.val; omega
  have rd0 : ∀ l : Fin 10000, iblk3 V c 0 t (ix2 p l) = V c main_call0_v4_1 (ix2 (⟨t.val * 200 + p.val, hrow⟩ : Fin 10000) l) := fun l => by
    show V c main_call0_v4_1 (((cfg3.win 0).blk t).view.emb (ix2 p l)) = _
    refine congrArg (V c main_call0_v4_1) ?_
    funext a; apply Fin.ext
    match a with
    | ⟨0, _⟩ => show win3_0.index t (0 : Fin 2) * 200 + 1 * p.val = t.val * 200 + p.val; omega
    | ⟨1, _⟩ => show win3_0.index t (1 : Fin 2) * 10000 + 1 * l.val = l.val; omega
  have rd1 : ∀ l : Fin 10000, iblk3 V c 1 t (ix2 l q) = V c main_call0_v7 (ix2 l q) := fun l => by
    show V c main_call0_v7 (((cfg3.win 1).blk t).view.emb (ix2 l q)) = _
    refine congrArg (V c main_call0_v7) ?_
    funext a; apply Fin.ext
    match a with
    | ⟨0, _⟩ => show win3_1.index t (0 : Fin 2) * 10000 + 1 * l.val = l.val; omega
    | ⟨1, _⟩ => show win3_1.index t (1 : Fin 2) * 40 + 1 * q.val = q.val; omega
  have rd2 : iblk3 V c 2 t (ix2 (0 : Fin 1) q) = V c main_call0_v8 (ix2 (0 : Fin 1) q) := by
    show V c main_call0_v8 (((cfg3.win 2).blk t).view.emb (ix2 (0 : Fin 1) q)) = _
    refine congrArg (V c main_call0_v8) ?_
    funext a; apply Fin.ext
    match a with
    | ⟨0, _⟩ => show win3_2.index t (0 : Fin 2) * 1 + 1 * 0 = 0; omega
    | ⟨1, _⟩ => show win3_2.index t (1 : Fin 2) * 40 + 1 * q.val = q.val; omega
  show _ = addRow (mm (V c main_call0_v4_1) (V c main_call0_v7)) (rowOf (V c main_call0_v8)) (((cfg3.win 3).blk t).view.emb (ix2 p q))
  rw [hemb, addRow_apply, mm_apply, rowOf_apply, rd2]
  exact congrArg (· + V c main_call0_v8 (ix2 (0 : Fin 1) q)) (Finset.sum_congr rfl fun l _ => by rw [rd0 l, rd1 l])

/-- An index of the array is in point `t`'s block iff each coordinate is in the block's range on its axis. -/
theorem mem_blk (t : Fin cfg3.N) (i : S10000x40.Idx) :
    i ∈ ((cfg3.win 3).blk t).view.set ↔ ∀ a : Fin 2, win3_3.index t a * S200x40.size a ≤ (i a).val ∧ (i a).val < win3_3.index t a * S200x40.size a + S200x40.size a := by
  show i ∈ ((View.whole main_v0).slice (win3_3.rect t)).set ↔ _
  rw [View.set_slice_whole, Rect.mem_set_unit]
  exact Iff.rfl

/-- Every row lies in the block of the point its row index divided by 200 names. -/
theorem cover (i : S10000x40.Idx) : ∃ t : Fin cfg3.N, (cfg3.win 3).flush t = true ∧ i ∈ ((cfg3.win 3).blk t).view.set := by
  have hi0 : (i 0).val < 10000 := (i 0).isLt
  have hi1 : (i 1).val < 40 := (i 1).isLt
  let t : Fin cfg3.N := ⟨(i 0).val / 200, by rw [show cfg3.N = 50 from N_3]; omega⟩
  obtain ⟨e0, e1, e2, e3, e4, e5, e6, e7⟩ := idx_facts t
  have e6' : win3_3.index t (0 : Fin 2) = (i 0).val / 200 := e6
  refine ⟨t, flush3_3 t, ?_⟩
  rw [mem_blk]
  intro a
  match a with
  | ⟨0, _⟩ => show win3_3.index t (0 : Fin 2) * 200 ≤ (i 0).val ∧ (i 0).val < win3_3.index t (0 : Fin 2) * 200 + 200; omega
  | ⟨1, _⟩ => show win3_3.index t (1 : Fin 2) * 40 ≤ (i 1).val ∧ (i 1).val < win3_3.index t (1 : Fin 2) * 40 + 40; omega

/-- The result array after the run: the adjacency matrix times the right factor, plus the bias row. -/
theorem final (c : Dev nD) :
    (dat3 V c).arrAt 3 cfg3.N = addRow (mm (V c main_call0_v4_1) (V c main_call0_v7)) (rowOf (V c main_call0_v8)) :=
  (dat3 V c).arrAt_eq_of_cover 3 _ (fun t _ => flushed_eq V c t) cover

end Cert.KernelIdeal.Region3

end
-- ==== Proof.Chain.lean ====
/- The contents of the buffers between the four regions, read back to the arguments as launched.

   Each stretch of host operations only reshapes a bias vector to one row or changes a weight matrix's float format (the
   identity on extended reals); each region writes its outputs and leaves every other buffer alone. So at every region's
   entry each array it reads is either an argument, a reshaped or re-formatted argument, or an earlier region's output,
   and the last region's output is the network's result. -/
import proofs.«111388_g51960514347202_cont_8to1_c_266_17_alg».proof.Proof.Gen.KernelIdeal.Frame
import proofs.«111388_g51960514347202_cont_8to1_c_266_17_alg».proof.Proof.GcnSpec
import proofs.«111388_g51960514347202_cont_8to1_c_266_17_alg».proof.Proof.Region0
import proofs.«111388_g51960514347202_cont_8to1_c_266_17_alg».proof.Proof.Region1
import proofs.«111388_g51960514347202_cont_8to1_c_266_17_alg».proof.Proof.Region2
import proofs.«111388_g51960514347202_cont_8to1_c_266_17_alg».proof.Proof.Region3
import Idealize.ShloMosaic.Lib.StableHlo.Run
import Idealize.ShloMosaic.Lib.ValueIdx
import Idealize.ShloMosaic.Lib.ValueLayout

set_option maxRecDepth 16384

noncomputable section

namespace Cert.KernelIdeal.Chain

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arguments as launched -/

abbrev aX (c : Dev nD) : Mat 10000 512 := m ((c : Thread nD τ).loc main_arg0)
abbrev aAdj (c : Dev nD) : Mat 10000 10000 := m ((c : Thread nD τ).loc main_arg1)
abbrev aW0 (c : Dev nD) : Mat 512 512 := m ((c : Thread nD τ).loc main_arg2)
abbrev aB0 (c : Dev nD) : Row 512 := m ((c : Thread nD τ).loc main_arg3)
abbrev aW1 (c : Dev nD) : Mat 512 512 := m ((c : Thread nD τ).loc main_arg4)
abbrev aB1 (c : Dev nD) : Row 512 := m ((c : Thread nD τ).loc main_arg5)
abbrev aW2 (c : Dev nD) : Mat 512 40 := m ((c : Thread nD τ).loc main_arg6)
abbrev aB2 (c : Dev nD) : Row 40 := m ((c : Thread nD τ).loc main_arg7)

/-- A vector reshaped to one row has that vector as its row. -/
theorem rowOf_shapeCast {N : Nat} (v : Row N) (h : (⟨1, ![N]⟩ : Shape).ShapeCasts ⟨2, ![1, N]⟩) :
    rowOf (shapeCast ⟨2, ![1, N]⟩ v h) = v := by
  funext i
  obtain ⟨a, rfl⟩ : ∃ a : Fin N, i = ix1 a := ⟨i 0, eq_ix1 i⟩
  exact shapeCast_a_1a_apply v h (0 : Fin 1) a

/-! ## The first region: its entry and its output -/

theorem V1_x (c : Dev nD) : V1 m ρ c main_arg0 = aX m c := by
  show StableHlo.after hostOps0 (W0 m ρ c) (Proc.devRef .tc main_arg0) = _
  after_results

theorem V1_w0 (c : Dev nD) : V1 m ρ c main_call0_v0 = aW0 m c := by
  show StableHlo.after hostOps0 (W0 m ρ c) (Proc.devRef .tc main_call0_v0) = _
  after_results
  rfl

theorem W2_sup0 (c : Dev nD) : W2 m ρ c (Proc.devRef .tc main_call0_v1) = sup0 (aX m c) (aW0 m c) :=
  (W2_arr m ρ c 2).trans ((Region0.final (V1 m ρ) c).trans (by rw [V1_x, V1_w0]; rfl))

/-! ## The second region -/

theorem W2_adj (c : Dev nD) : W2 m ρ c (Proc.devRef .tc main_arg1) = aAdj m c :=
  (W2_of_ne m ρ c main_arg1 (by decide)).trans (by
    show StableHlo.after hostOps0 (W0 m ρ c) (Proc.devRef .tc main_arg1) = _
    after_results)

theorem W2_b0 (c : Dev nD) : W2 m ρ c (Proc.devRef .tc main_arg3) = aB0 m c :=
  (W2_of_ne m ρ c main_arg3 (by decide)).trans (by
    show StableHlo.after hostOps0 (W0 m ρ c) (Proc.devRef .tc main_arg3) = _
    after_results)

theorem W2_w1 (c : Dev nD) : W2 m ρ c (Proc.devRef .tc main_arg4) = aW1 m c :=
  (W2_of_ne m ρ c main_arg4 (by decide)).trans (by
    show StableHlo.after hostOps0 (W0 m ρ c) (Proc.devRef .tc main_arg4) = _
    after_results)

theorem V3_adj (c : Dev nD) : V3 m ρ c main_arg1 = aAdj m c := by
  show StableHlo.after hostOps1 (W2 m ρ c) (Proc.devRef .tc main_arg1) = _
  after_results
  exact W2_adj m ρ c

theorem V3_sup0 (c : Dev nD) : V3 m ρ c main_call0_v1 = sup0 (aX m c) (aW0 m c) := by
  show StableHlo.after hostOps1 (W2 m ρ c) (Proc.devRef .tc main_call0_v1) = _
  after_results
  exact W2_sup0 m ρ c

theorem V3_b0 (c : Dev nD) : rowOf (V3 m ρ c main_call0_v2) = aB0 m c := by
  have e : V3 m ρ c main_call0_v2 = shapeCast S1x512 (W2 m ρ c (Proc.devRef .tc main_arg3)) shapeCasts_S512_S1x512 := by
    show StableHlo.after hostOps1 (W2 m ρ c) (Proc.devRef .tc main_call0_v2) = _
    after_results
    rfl
  rw [e, W2_b0]
  exact rowOf_shapeCast _ _

theorem V3_w1 (c : Dev nD) : V3 m ρ c main_call0_v3 = aW1 m c := by
  show StableHlo.after hostOps1 (W2 m ρ c) (Proc.devRef .tc main_call0_v3) = _
  after_results
  rw [W2_w1]
  rfl

theorem W4_sup1 (c : Dev nD) :
    W4 m ρ c (Proc.devRef .tc main_call0_v4_0) = sup1 (aX m c) (aAdj m c) (aW0 m c) (aB0 m c) (aW1 m c) :=
  (W4_arr m ρ c 4).trans ((Region1.final4 (V3 m ρ) c).trans (by rw [V3_adj, V3_sup0, V3_b0, V3_w1]; rfl))

theorem W4_adjb (c : Dev nD) : W4 m ρ c (Proc.devRef .tc main_call0_v4_1) = aAdj m c :=
  (W4_arr m ρ c 5).trans ((Region1.final5 (V3 m ρ) c).trans (V3_adj m ρ c))

/-! ## The third region -/

theorem W4_b1 (c : Dev nD) : W4 m ρ c (Proc.devRef .tc main_arg5) = aB1 m c :=
  (W4_of_ne m ρ c main_arg5 (by decide)).trans (by
    show StableHlo.after hostOps1 (W2 m ρ c) (Proc.devRef .tc main_arg5) = _
    after_results
    refine (W2_of_ne m ρ c main_arg5 (by decide)).trans ?_
    show StableHlo.after hostOps0 (W0 m ρ c) (Proc.devRef .tc main_arg5) = _
    after_results)

theorem W4_w2 (c : Dev nD) : W4 m ρ c (Proc.devRef .tc main_arg6) = aW2 m c :=
  (W4_of_ne m ρ c main_arg6 (by decide)).trans (by
    show StableHlo.after hostOps1 (W2 m ρ c) (Proc.devRef .tc main_arg6) = _
    after_results
    refine (W2_of_ne m ρ c main_arg6 (by decide)).trans ?_
    show StableHlo.after hostOps0 (W0 m ρ c) (Proc.devRef .tc main_arg6) = _
    after_results)

theorem W4_b2 (c : Dev nD) : W4 m ρ c (Proc.devRef .tc main_arg7) = aB2 m c :=
  (W4_of_ne m ρ c main_arg7 (by decide)).trans (by
    show StableHlo.after hostOps1 (W2 m ρ c) (Proc.devRef .tc main_arg7) = _
    after_results
    refine (W2_of_ne m ρ c main_arg7 (by decide)).trans ?_
    show StableHlo.after hostOps0 (W0 m ρ c) (Proc.devRef .tc main_arg7) = _
    after_results)

theorem V5_adjb (c : Dev nD) : V5 m ρ c main_call0_v4_1 = aAdj m c := by
  show StableHlo.after hostOps2 (W4 m ρ c) (Proc.devRef .tc main_call0_v4_1) = _
  after_results
  exact W4_adjb m ρ c

theorem V5_sup1 (c : Dev nD) :
    V5 m ρ c main_call0_v4_0 = sup1 (aX m c) (aAdj m c) (aW0 m c) (aB0 m c) (aW1 m c) := by
  show StableHlo.after hostOps2 (W4 m ρ c) (Proc.devRef .tc main_call0_v4_0) = _
  after_results
  exact W4_sup1 m ρ c

theorem V5_b1 (c : Dev nD) : rowOf (V5 m ρ c main_call0_v5) = aB1 m c := by
  have e : V5 m ρ c main_call0_v5 = shapeCast S1x512 (W4 m ρ c (Proc.devRef .tc main_arg5)) shapeCasts_S512_S1x512 := by
    show StableHlo.after hostOps2 (W4 m ρ c) (Proc.devRef .tc main_call0_v5) = _
    after_results
    rfl
  rw [e, W4_b1]
  exact rowOf_shapeCast _ _

theorem V5_w2 (c : Dev nD) : V5 m ρ c main_call0_v6 = aW2 m c := by
  show StableHlo.after hostOps2 (W4 m ρ c) (Proc.devRef .tc main_call0_v6) = _
  after_results
  rw [W4_w2]
  rfl

theorem W6_sup2 (c : Dev nD) :
    W6 m ρ c (Proc.devRef .tc main_call0_v7) = sup2 (aX m c) (aAdj m c) (aW0 m c) (aB0 m c) (aW1 m c) (aB1 m c) (aW2 m c) :=
  (W6_arr m ρ c 4).trans ((Region2.final (V5 m ρ) c).trans (by rw [V5_adjb, V5_sup1, V5_b1, V5_w2]; rfl))

theorem W6_adjb (c : Dev nD) : W6 m ρ c (Proc.devRef .tc main_call0_v4_1) = aAdj m c :=
  (W6_arr m ρ c 0).trans ((((dat2 (V5 m ρ) c).arrAt_in 0 rfl _).trans (A_eq2 (V5 m ρ) c 0)).trans (V5_adjb m ρ c))

/-! ## The fourth region -/

theorem W6_b2 (c : Dev nD) : W6 m ρ c (Proc.devRef .tc main_arg7) = aB2 m c :=
  (W6_of_ne m ρ c main_arg7 (by decide)).trans (by
    show StableHlo.after hostOps2 (W4 m ρ c) (Proc.devRef .tc main_arg7) = _
    after_results
    exact W4_b2 m ρ c)

theorem V7_adjb (c : Dev nD) : V7 m ρ c main_call0_v4_1 = aAdj m c := by
  show StableHlo.after hostOps3 (W6 m ρ c) (Proc.devRef .tc main_call0_v4_1) = _
  after_results
  exact W6_adjb m ρ c

theorem V7_sup2 (c : Dev nD) :
    V7 m ρ c main_call0_v7 = sup2 (aX m c) (aAdj m c) (aW0 m c) (aB0 m c) (aW1 m c) (aB1 m c) (aW2 m c) := by
  show StableHlo.after hostOps3 (W6 m ρ c) (Proc.devRef .tc main_call0_v7) = _
  after_results
  exact W6_sup2 m ρ c

theorem V7_b2 (c : Dev nD) : rowOf (V7 m ρ c main_call0_v8) = aB2 m c := by
  have e : V7 m ρ c main_call0_v8 = shapeCast S1x40 (W6 m ρ c (Proc.devRef .tc main_arg7)) shapeCasts_S40_S1x40 := by
    show StableHlo.after hostOps3 (W6 m ρ c) (Proc.devRef .tc main_call0_v8) = _
    after_results
    rfl
  rw [e, W6_b2]
  exact rowOf_shapeCast _ _

/-- The result buffer after the last region: the network's output of the arguments as launched. -/
theorem W8_out (c : Dev nD) :
    W8 m ρ c (Proc.devRef .tc main_v0)
      = out (aX m c) (aAdj m c) (aW0 m c) (aB0 m c) (aW1 m c) (aB1 m c) (aW2 m c) (aB2 m c) :=
  (W8_arr m ρ c 3).trans ((Region3.final (V7 m ρ) c).trans (by rw [V7_adjb, V7_sup2, V7_b2]; rfl))

end Cert.KernelIdeal.Chain

end
-- ==== Proof.RefValue.lean ====
/- The reference's run, read as the specification: its products are the matrix products, its two broadcasts of a
   bias vector the bias row added to every row, its maximum with a spread zero the positive part. -/
import proofs.«111388_g51960514347202_cont_8to1_c_266_17_alg».proof.Proof.Gen.ReferenceIdeal.Run
import proofs.«111388_g51960514347202_cont_8to1_c_266_17_alg».proof.Proof.GcnSpec
import proofs.«111388_g51960514347202_cont_8to1_c_266_17_alg».proof.Proof.GcnOps

noncomputable section

namespace Cert.ReferenceIdeal.RefValue

open Cert.ReferenceIdeal Cert.ReferenceIdeal.Gen Cert.Gcn
open Idealize.ShloMosaic

/-- The composed term of the reference's run is the network's output. -/
theorem result_eq (x : FVec Ideal S10000x512 .f32) (adj : FVec Ideal S10000x10000 .f32) (W0 : FVec Ideal S512x512 .f32)
    (b0 : FVec Ideal S512 .f32) (W1 : FVec Ideal S512x512 .f32) (b1 : FVec Ideal S512 .f32) (W2 : FVec Ideal S512x40 .f32)
    (b2 : FVec Ideal S40 .f32) :
    addf (Host.dotGeneral dot_S10000x10000_S10000x40_S10000x40_1_0_0_1_n_n none adj (Host.dotGeneral dot_S10000x512_S512x40_S10000x40_1_0_0_1_n_n none (maximumf (addf (Host.dotGeneral dot_S10000x10000_S10000x512_S10000x512_1_0_0_1_n_n none adj (Host.dotGeneral dot_S10000x512_S512x512_S10000x512_1_0_0_1_n_n none (maximumf (addf (Host.dotGeneral dot_S10000x10000_S10000x512_S10000x512_1_0_0_1_n_n none adj (Host.dotGeneral dot_S10000x512_S512x512_S10000x512_1_0_0_1_n_n none x W0)) (broadcastInDim S10000x512 ![0, 1] bcast_S1x512_S10000x512_0_1 (broadcastInDim S1x512 ![1] bcast_S512_S1x512_1 b0))) (broadcastInDim S10000x512 ![] bcast_S_S10000x512 (constant S_ .f32 0x00000000#32))) W1)) (broadcastInDim S10000x512 ![0, 1] bcast_S1x512_S10000x512_0_1 (broadcastInDim S1x512 ![1] bcast_S512_S1x512_1 b1))) (broadcastInDim S10000x512 ![] bcast_S_S10000x512 (constant S_ .f32 0x00000000#32))) W2)) (broadcastInDim S10000x40 ![0, 1] bcast_S1x40_S10000x40_0_1 (broadcastInDim S1x40 ![1] bcast_S40_S1x40_1 b2))
      = out x adj W0 b0 W1 b1 W2 b2 := by
  rw [hostDot_eq_mm dot_S10000x512_S512x512_S10000x512_1_0_0_1_n_n rfl rfl rfl rfl rfl rfl x W0,
    hostDot_eq_mm dot_S10000x10000_S10000x512_S10000x512_1_0_0_1_n_n rfl rfl rfl rfl rfl rfl adj,
    addf_bcast_eq_addRow, maximumf_bcast_eq_pos,
    hostDot_eq_mm dot_S10000x512_S512x512_S10000x512_1_0_0_1_n_n rfl rfl rfl rfl rfl rfl,
    hostDot_eq_mm dot_S10000x10000_S10000x512_S10000x512_1_0_0_1_n_n rfl rfl rfl rfl rfl rfl adj,
    addf_bcast_eq_addRow, maximumf_bcast_eq_pos,
    hostDot_eq_mm dot_S10000x512_S512x40_S10000x40_1_0_0_1_n_n rfl rfl rfl rfl rfl rfl,
    hostDot_eq_mm dot_S10000x10000_S10000x40_S10000x40_1_0_0_1_n_n rfl rfl rfl rfl rfl rfl adj,
    addf_bcast_eq_addRow]
  rfl

end Cert.ReferenceIdeal.RefValue

end
-- ==== Proof.lean ====
/- The certificate of a three-layer dense graph convolution against its plain reference.

   Both programs compute, over the extended reals, `adj · (h₂ · W₂) + b₂` with `h₂ = max(adj · (h₁ · W₁) + b₁, 0)` and
   `h₁ = max(adj · (x · W₀) + b₀, 0)`, in that order of the products. The kernel program runs four regions (the first
   product; each hidden layer fused with the next product, the first of them also copying the adjacency matrix; the last
   layer), each a row-blocked pass whose blocks tile the 10000 rows; its changes of float format are the identity on
   extended reals. The reference is one line of host operations. Each side is read as the same function of the arguments
   (`Cert.Gcn.out`), so the two results are equal entry by entry; no algebraic law beyond reading each operation at an
   index is used, and the precondition is not opened. -/
import proofs.«111388_g51960514347202_cont_8to1_c_266_17_alg».proof.Defs
import proofs.«111388_g51960514347202_cont_8to1_c_266_17_alg».proof.Proof.Gen.Kernel
import proofs.«111388_g51960514347202_cont_8to1_c_266_17_alg».proof.Proof.Gen.Kernel.Skeleton
import proofs.«111388_g51960514347202_cont_8to1_c_266_17_alg».proof.Proof.Gen.Kernel.Launch
import proofs.«111388_g51960514347202_cont_8to1_c_266_17_alg».proof.Proof.Gen.Kernel.Points
import proofs.«111388_g51960514347202_cont_8to1_c_266_17_alg».proof.Proof.Gen.Kernel.Frame
import proofs.«111388_g51960514347202_cont_8to1_c_266_17_alg».proof.Proof.Gen.KernelIdeal
import proofs.«111388_g51960514347202_cont_8to1_c_266_17_alg».proof.Proof.Gen.KernelIdeal.Skeleton
import proofs.«111388_g51960514347202_cont_8to1_c_266_17_alg».proof.Proof.Gen.KernelIdeal.Launch
import proofs.«111388_g51960514347202_cont_8to1_c_266_17_alg».proof.Proof.Gen.KernelIdeal.Points
import proofs.«111388_g51960514347202_cont_8to1_c_266_17_alg».proof.Proof.Gen.KernelIdeal.Frame
import proofs.«111388_g51960514347202_cont_8to1_c_266_17_alg».proof.Proof.Gen.ReferenceIdeal
import proofs.«111388_g51960514347202_cont_8to1_c_266_17_alg».proof.Proof.Gen.ReferenceIdeal.Run
import proofs.«111388_g51960514347202_cont_8to1_c_266_17_alg».proof.Proof.Gen.Pre_finite_inputs
import proofs.«111388_g51960514347202_cont_8to1_c_266_17_alg».proof.Proof.GcnSpec
import proofs.«111388_g51960514347202_cont_8to1_c_266_17_alg».proof.Proof.KernelIdealRun
import proofs.«111388_g51960514347202_cont_8to1_c_266_17_alg».proof.Proof.Chain
import proofs.«111388_g51960514347202_cont_8to1_c_266_17_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network's output of those arguments in their
    result buffers. -/
theorem algebraic : Cert.algebraic_KernelIdeal_ReferenceIdeal := by
  intro m ρ m' ρ' _ hagree
  refine ⟨fun c => Cert.Gcn.out (Cert.KernelIdeal.Chain.aX m c) (Cert.KernelIdeal.Chain.aAdj m c) (Cert.KernelIdeal.Chain.aW0 m c)
      (Cert.KernelIdeal.Chain.aB0 m c) (Cert.KernelIdeal.Chain.aW1 m c) (Cert.KernelIdeal.Chain.aB1 m c)
      (Cert.KernelIdeal.Chain.aW2 m c) (Cert.KernelIdeal.Chain.aB2 m c), ?_, ?_⟩
  · exact (θ_run Cert.KernelIdeal.defs _ _).mono
      (fun r h c => ⟨(h c).1.trans (Cert.KernelIdeal.Chain.W8_out m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [h0, h1, h2, h3, h4, h5, h6, h7]
    exact Cert.ReferenceIdeal.RefValue.result_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
